-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1x16 : S_.BroadcastsInDim S1x16 (![] : Fin 0 → Fin S1x16.rank)
  reducesTo_S1x16_S_d0_1 : S1x16.ReducesTo [0, 1] S_
  bcast_S_S272x1024 : S_.BroadcastsInDim S272x1024 (![] : Fin 0 → Fin S272x1024.rank)
  reducesTo_S272x1024_S_d0_1 : S272x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S1024 .f32) (main_arg5 : FVec F S1024x128 .f32) (main_arg6 : FVec F S128 .f32) (main_v13 : IVec S_ 1) (main_v16 : IVec S272x1024 1) : IVec S_ 1 :=
  let main_c_5 : IVec S_ 1 := constantI S_ 1 1#1
  let main_v17 : IVec S_ 1 := (fun x v => Host.reduce IntOp.andi x v reducesTo_S272x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S1600000x128 .f32) (main_arg2 : FVec F S1x16 .f32) (main_arg3 : FVec F S272x1024 .f32) (main_arg4 : FVec F S1024 .f32) (main_arg5 : FVec F S1024x128 .f32) (main_arg6 : FVec F S128 .f32) (main_arg7 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S272x1024 .f32 := Host.absf main_arg3
  let main_cst_4 : FVec F S_ .f32 := constant S_ .f32 0x7F800000#32
  let main_v15 : FVec F S272x1024 .f32 := broadcastInDim S272x1024 ![] bcast_S_S272x1024 main_cst_4
  let main_v16 : IVec S272x1024 1 := cmpf .olt main_v14 main_v15
  fn_part1 (F := F) main_arg4 main_arg5 main_arg6 main_v13 main_v16
-- ==== Kernel.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S128x1024 : Shape := ⟨2, ![128, 1024]⟩
abbrev S16x1024 : Shape := ⟨2, ![16, 1024]⟩
abbrev S1x1024 : Shape := ⟨2, ![1, 1024]⟩
abbrev S1x128 : Shape := ⟨2, ![1, 128]⟩
abbrev S1000x128 : Shape := ⟨2, ![1000, 128]⟩
abbrev S1000x1024 : Shape := ⟨2, ![1000, 1024]⟩

abbrev nBuf : Space → Nat
  | .hbm => 22
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S1x16, .f32⟩
  | .hbm, ⟨3, _⟩ => ⟨S272x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000x128, .f32⟩
  | .hbm, ⟨12, _⟩ => ⟨S1600000x1, .i32⟩
  | .hbm, ⟨13, _⟩ => ⟨S50000x128, .f32⟩
  | .hbm, ⟨14, _⟩ => ⟨S128x1024, .f32⟩
  | .hbm, ⟨15, _⟩ => ⟨S128x1024, .f32⟩
  | .hbm, ⟨16, _⟩ => ⟨S16x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x128, .f32⟩
  | .hbm, ⟨21, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  slices_S272x1024_S128x1024_0_0 : S272x1024.Slices ![0, 0] S128x1024
  slices_S272x1024_S128x1024_128_0 : S272x1024.Slices ![128, 0] S128x1024
  slices_S272x1024_S16x1024_256_0 : S272x1024.Slices ![256, 0] S16x1024
  shapeCasts_S1024_S1x1024 : S1024.ShapeCasts S1x1024
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000x128_S1600000x1_S1600000x128_1_0_0_1_wf : ScatterDims.WF S50000x128 S1600000x1 S1600000x128 [1] [0] [0] 1
  dot_S1x16_S16x1024_S1x1024_1_0_0_1_n_n_wf : DotDims.WF S1x16 S16x1024 S1x1024 [1] [0] [0] [1] [] []
  dot_S1000x128_S128x1024_S1000x1024_1_0_0_1_n_n_wf : DotDims.WF S1000x128 S128x1024 S1000x1024 [1] [0] [0] [1] [] []
  dot_S1000x1024_S1024x128_S1000x128_1_0_0_1_n_n_wf : DotDims.WF S1000x1024 S1024x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S50000x128.size a
  hwx0_7 : ∀ i : grid0.Coords, EltTy.bits .f32 = 32 ∨ (Rect.block (s := S50000x128) S1000x128.size (cc0_transform_7 i) (hinb0_7 i)).WholeWords (EltTy.packing .f32)

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S1x16_S16x1024_S1x1024_1_0_0_1_n_n : DotDims S1x16 S16x1024 S1x1024 where
  lhsContracting := [1]
  rhsContracting := [0]
  lhsNonContracting := [0]
  rhsNonContracting := [1]
  lhsBatch := []
  rhsBatch := []
  wf := dot_S1x16_S16x1024_S1x1024_1_0_0_1_n_n_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf

abbrev win0_0 : Pipeline.Window sig grid0 :=
  Pipeline.Window.ofSpec (Memref.whole main_v4) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x16 : Shape := ⟨2, ![50000, 16]⟩
abbrev S50000x272 : Shape := ⟨2, ![50000, 272]⟩
abbrev S50000x1024 : Shape := ⟨2, ![50000, 1024]⟩
abbrev S1x1024 : Shape := ⟨2, ![1, 1024]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S1x16, .f32⟩
  | .hbm, ⟨3, _⟩ => ⟨S272x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000x128, .f32⟩
  | .hbm, ⟨12, _⟩ => ⟨S1600000x1, .i32⟩
  | .hbm, ⟨13, _⟩ => ⟨S50000x128, .f32⟩
  | .hbm, ⟨14, _⟩ => ⟨S50000x16, .f32⟩
  | .hbm, ⟨15, _⟩ => ⟨S50000x272, .f32⟩
  | .hbm, ⟨16, _⟩ => ⟨S50000x1024, .f32⟩
  | .hbm, ⟨17, _⟩ => ⟨S1x1024, .f32⟩
  | .hbm, ⟨18, _⟩ => ⟨S50000x1024, .f32⟩
  | .hbm, ⟨19, _⟩ => ⟨S50000x1024, .f32⟩
  | .hbm, ⟨20, _⟩ => ⟨S_, .f32⟩
  | .hbm, ⟨21, _⟩ => ⟨S50000x1024, .f32⟩
  | .hbm, ⟨22, _⟩ => ⟨S50000x1024, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  bcast_S1x16_S50000x16_0_1 : S1x16.BroadcastsInDim S50000x16 (![0, 1] : Fin 2 → Fin S50000x16.rank)
  concatenates_S50000x128_S50000x128_S50000x16_S50000x272_d1 : Shape.Concatenates [S50000x128, S50000x128, S50000x16] S50000x272 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S1600000x1_S1600000x128_1_0_0_1_wf : ScatterDims.WF S50000x128 S1600000x1 S1600000x128 [1] [0] [0] 1
  dot_S50000x272_S272x1024_S50000x1024_1_0_0_1_n_n_wf : DotDims.WF S50000x272 S272x1024 S50000x1024 [1] [0] [0] [1] [] []
  dot_S50000x1024_S1024x128_S50000x128_1_0_0_1_n_n_wf : DotDims.WF S50000x1024 S1024x128 S50000x128 [1] [0] [0] [1] [] []

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x272_S272x1024_S50000x1024_1_0_0_1_n_n : DotDims S50000x272 S272x1024 S50000x1024 where
  lhsContracting := [1]
  rhsContracting := [0]
  lhsNonContracting := [0]
  rhsNonContracting := [1]
  lhsBatch := []
  rhsBatch := []
  wf := dot_S50000x272_S272x1024_S50000x1024_1_0_0_1_n_n_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.NodeMlp.lean ====
/-
  The node update of a message-passing layer, as one function of its arrays, entry by entry, on the extended reals.

  For node r (of 50000) the input row is the concatenation of three pieces: the 128 aggregated edge features agg(r, ·),
  the node's own 128 features x(r, ·), and the 16 global features u(0, ·), the same for every node. The first layer
  multiplies that row of 272 entries by W1 (272 × 1024), adds b1 and takes the maximum with 0; the second multiplies
  the 1024 hidden values by W2 (1024 × 128) and adds b2.

  Two arrangements of the first layer's sum occur. The plain one runs over all 272 rows of W1 at once. The split one
  sums rows 0..127 of W1 against agg, rows 128..255 against x, and rows 256..271 against u separately, and adds the
  last sum to the bias before the other two. They are equal because a sum over 272 = 128 + 128 + 16 terms is the sum
  of its three stretches, and addition of extended reals is commutative and associative (no finiteness is needed:
  nothing is cancelled or distributed).
-/
import Mathlib.Algebra.BigOperators.Fin
import Idealize.ShloMosaic.PureOps.Ideal
import Idealize.ShloMosaic.Lib.ValueIdx

noncomputable section

open scoped BigOperators

namespace Cert.NodeMlp

open Idealize.ShloMosaic Idealize.ShloMosaic.ValueIdx

/-- Row a of the first stretch of W1's 272 rows (rows 0..127: they multiply the aggregated edge features). -/
abbrev rowAgg (a : Fin 128) : Fin 272 := ⟨a.val, by have := a.isLt; omega⟩
/-- Row a of the second stretch (rows 128..255: they multiply the node's own features). -/
abbrev rowNode (a : Fin 128) : Fin 272 := ⟨128 + a.val, by have := a.isLt; omega⟩
/-- Row a of the third stretch (rows 256..271: they multiply the global features). -/
abbrev rowGlob (a : Fin 16) : Fin 272 := ⟨256 + a.val, by have := a.isLt; omega⟩

/-- A sum over 272 terms is the sum of its stretches of 128, 128 and 16 terms. -/
theorem sum_three_stretches (f : Fin 272 → EReal) :
    ∑ a : Fin 272, f a
      = ((∑ a : Fin 128, f (rowAgg a)) + ∑ a : Fin 128, f (rowNode a)) + ∑ a : Fin 16, f (rowGlob a) := by
  have e1 : ∑ a : Fin 272, f a = (∑ a : Fin 256, f (Fin.castAdd 16 a)) + ∑ a : Fin 16, f (Fin.natAdd 256 a) :=
    Fin.sum_univ_add (a := 256) (b := 16) f
  have e2 : ∑ a : Fin 256, f (Fin.castAdd 16 a)
      = (∑ a : Fin 128, f (Fin.castAdd 16 (Fin.castAdd 128 a))) + ∑ a : Fin 128, f (Fin.castAdd 16 (Fin.natAdd 128 a)) :=
    Fin.sum_univ_add (a := 128) (b := 128) fun a => f (Fin.castAdd 16 a)
  rw [e1, e2]
  rfl

variable (agg x : FVec Ideal ⟨2, ![50000, 128]⟩ .f32) (u : FVec Ideal ⟨2, ![1, 16]⟩ .f32)
  (W1 : FVec Ideal ⟨2, ![272, 1024]⟩ .f32) (b1 : FVec Ideal ⟨1, ![1024]⟩ .f32)
  (W2 : FVec Ideal ⟨2, ![1024, 128]⟩ .f32) (b2 : FVec Ideal ⟨1, ![128]⟩ .f32)

/-- The global features' share of hidden unit k before the maximum: the bias plus the 16 global features against
    rows 256..271 of W1. It does not depend on the node. -/
def globShare (k : Fin 1024) : EReal :=
  b1 (ix1 k) + ∑ a : Fin 16, u (ix2 0 a) * W1 (ix2 (rowGlob a) k)

/-- Hidden unit k of node r before the maximum, in the split arrangement. -/
def preSplit (r : Fin 50000) (k : Fin 1024) : EReal :=
  ((∑ a : Fin 128, agg (ix2 r a) * W1 (ix2 (rowAgg a) k)) + ∑ a : Fin 128, x (ix2 r a) * W1 (ix2 (rowNode a) k))
    + globShare u W1 b1 k

/-- Entry a of node r's concatenated input row. -/
def inputRow (r : Fin 50000) (a : Fin 272) : EReal :=
  if h : a.val < 128 then agg (ix2 r ⟨a.val, h⟩)
  else if h' : a.val < 256 then x (ix2 r ⟨a.val - 128, by omega⟩)
  else u (ix2 0 ⟨a.val - 256, by have := a.isLt; omega⟩)

/-- Hidden unit k of node r before the maximum, in the plain arrangement: the whole row against W1, plus the bias. -/
def prePlain (r : Fin 50000) (k : Fin 1024) : EReal :=
  (∑ a : Fin 272, inputRow agg x u r a * W1 (ix2 a k)) + b1 (ix1 k)

/-- The two arrangements of the first layer agree. -/
theorem prePlain_eq_preSplit (r : Fin 50000) (k : Fin 1024) :
    prePlain agg x u W1 b1 r k = preSplit agg x u W1 b1 r k := by
  unfold prePlain preSplit globShare
  rw [sum_three_stretches]
  have hA : ∀ a : Fin 128, inputRow agg x u r (rowAgg a) = agg (ix2 r a) := fun a => by
    unfold inputRow; rw [dif_pos (show (rowAgg a).val < 128 from a.isLt)]
  have hN : ∀ a : Fin 128, inputRow agg x u r (rowNode a) = x (ix2 r a) := fun a => by
    unfold inputRow
    rw [dif_neg (show ¬(rowNode a).val < 128 by show ¬(128 + a.val < 128); omega),
      dif_pos (show (rowNode a).val < 256 by show 128 + a.val < 256; have := a.isLt; omega)]
    exact congrArg (fun b => x (ix2 r b)) (Fin.ext (show 128 + a.val - 128 = a.val by omega))
  have hG : ∀ a : Fin 16, inputRow agg x u r (rowGlob a) = u (ix2 0 a) := fun a => by
    unfold inputRow
    rw [dif_neg (show ¬(rowGlob a).val < 128 by show ¬(256 + a.val < 128); omega),
      dif_neg (show ¬(rowGlob a).val < 256 by show ¬(256 + a.val < 256); omega)]
    exact congrArg (fun b => u (ix2 0 b)) (Fin.ext (show 256 + a.val - 256 = a.val by omega))
  simp only [hA, hN, hG]
  rw [add_assoc, add_assoc, add_comm (∑ a : Fin 16, _) (b1 (ix1 k)), ← add_assoc]

/-- The updated features of node r, entry q: the second layer over the hidden values (the maximum of the first
    layer's sum with 0), plus the second bias. -/
def updated (r : Fin 50000) (q : Fin 128) : EReal :=
  (∑ k : Fin 1024, max (preSplit agg x u W1 b1 r k) 0 * W2 (ix2 k q)) + b2 (ix1 q)

/-- A block's formula is the updated entry: if a block's rows are rows of the arrays (node p of the block is node r;
    its weight blocks are the first two stretches of W1; its bias rows are the global share and the second bias),
    then the block's second layer over its hidden values is the updated entry (r, q). -/
theorem updated_of_block
    (x0 x1 : FVec Ideal ⟨2, ![1000, 128]⟩ .f32) (x2 x3 : FVec Ideal ⟨2, ![128, 1024]⟩ .f32)
    (x4 : FVec Ideal ⟨2, ![1, 1024]⟩ .f32) (x5 : FVec Ideal ⟨2, ![1024, 128]⟩ .f32) (x6 : FVec Ideal ⟨2, ![1, 128]⟩ .f32)
    (r : Fin 50000) (p : Fin 1000) (q : Fin 128)
    (h0 : ∀ a : Fin 128, x0 (ix2 p a) = agg (ix2 r a)) (h1 : ∀ a : Fin 128, x1 (ix2 p a) = x (ix2 r a))
    (h2 : ∀ (a : Fin 128) (k : Fin 1024), x2 (ix2 a k) = W1 (ix2 (rowAgg a) k))
    (h3 : ∀ (a : Fin 128) (k : Fin 1024), x3 (ix2 a k) = W1 (ix2 (rowNode a) k))
    (h4 : ∀ k : Fin 1024, x4 (ix2 0 k) = globShare u W1 b1 k)
    (h5 : ∀ k : Fin 1024, x5 (ix2 k q) = W2 (ix2 k q)) (h6 : x6 (ix2 0 q) = b2 (ix1 q)) :
    (∑ k : Fin 1024,
        max (((∑ a : Fin 128, x0 (ix2 p a) * x2 (ix2 a k)) + ∑ a : Fin 128, x1 (ix2 p a) * x3 (ix2 a k)) + x4 (ix2 0 k)) 0
          * x5 (ix2 k q))
      + x6 (ix2 0 q)
      = updated agg x u W1 b1 W2 b2 r q := by
  unfold updated preSplit
  simp only [h0, h1, h2, h3, h4, h5, h6]

/-- The whole updated node array. -/
def updatedArr : FVec Ideal ⟨2, ![50000, 128]⟩ .f32 := fun i => updated agg x u W1 b1 W2 b2 (i 0) (i 1)

end Cert.NodeMlp

end
-- ==== Proof.EntryArrays.lean ====
/-
  The arrays the kernel region finds, as functions of the program's arguments.

  Before the region the host computes: the scatter-sum of the edge features onto their receiver nodes (the aggregated
  features); the stretches of rows 0..127 and 128..255 of the first weight matrix; the first bias as a row, plus the
  global features against rows 256..271 of the first weight matrix (one row of 1024 numbers, the same for every
  node); and the second bias as a row. Each is read here at an entry.
-/
import proofs.«144575_j34789235098352_1_alg».proof.Proof.Gen.KernelIdeal.Frame
import proofs.«144575_j34789235098352_1_alg».proof.Proof.LibPlainDot
import proofs.«144575_j34789235098352_1_alg».proof.Proof.NodeMlp
import Idealize.ShloMosaic.Lib.Pipeline.Value
import Idealize.ShloMosaic.Lib.ValueIdx
import Idealize.ShloMosaic.Lib.StableHlo.Run

noncomputable section

open scoped BigOperators

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo Cert.NodeMlp

/-- The scatter-sum of the edge features (1600000 × 128) onto the 50000 nodes, each edge's row added to the row of its
    receiver, the receivers being row 1 of the edge index array; it starts from zeros. -/
def aggregated (recv : IVec S2x1600000 32) (edges : FVec Ideal S1600000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0
      (shapeCast _ (extractStridedSlice S1x1600000 ![1, 0] recv slices_S2x1600000_S1x1600000_1_0) shapeCasts_S1x1600000_S1600000))
    edges

/-- The first bias as a row plus the global features (1 × 16) against rows 256..271 of the first weight matrix. -/
def foldedBias (u : FVec Ideal S1x16 .f32) (W1 : FVec Ideal S272x1024 .f32) (b1 : FVec Ideal S1024 .f32) : FVec Ideal S1x1024 .f32 :=
  addf (shapeCast S1x1024 b1 shapeCasts_S1024_S1x1024)
    (Host.dotGeneral dot_S1x16_S16x1024_S1x1024_1_0_0_1_n_n none u
      (extractStridedSlice S16x1024 ![256, 0] W1 slices_S272x1024_S16x1024_256_0))

variable (m : (ℓ : Loc nD τ sig) → Buf (Elt Ideal) ℓ)

/-- The region's first operand is the aggregated features. -/
theorem agg_eq (c : Dev nD) :
    (V m c main_v4 : S50000x128.Idx → EReal)
      = aggregated (m ((c : Thread nD τ).loc main_arg7)) (m ((c : Thread nD τ).loc main_arg1)) := by
  dsimp only [Gen.V, Gen.hostOps0]; after_results <;> rfl

/-- Rows 0..127 of the first weight matrix. -/
theorem w1a_eq (c : Dev nD) :
    (V m c main_v5 : S128x1024.Idx → EReal)
      = extractStridedSlice S128x1024 ![0, 0] (m ((c : Thread nD τ).loc main_arg3)) slices_S272x1024_S128x1024_0_0 := by
  dsimp only [Gen.V, Gen.hostOps0]; after_results <;> rfl

/-- Rows 128..255 of the first weight matrix. -/
theorem w1b_eq (c : Dev nD) :
    (V m c main_v6 : S128x1024.Idx → EReal)
      = extractStridedSlice S128x1024 ![128, 0] (m ((c : Thread nD τ).loc main_arg3)) slices_S272x1024_S128x1024_128_0 := by
  dsimp only [Gen.V, Gen.hostOps0]; after_results <;> rfl

/-- The first bias as a row plus the global features against rows 256..271 of the first weight matrix. -/
theorem bias1_eq (c : Dev nD) :
    (V m c main_v10 : S1x1024.Idx → EReal)
      = foldedBias (m ((c : Thread nD τ).loc main_arg2)) (m ((c : Thread nD τ).loc main_arg3)) (m ((c : Thread nD τ).loc main_arg4)) := by
  dsimp only [Gen.V, Gen.hostOps0]; after_results <;> rfl

/-- The second bias as a row. -/
theorem bias2_eq (c : Dev nD) :
    (V m c main_v11 : S1x128.Idx → EReal)
      = shapeCast S1x128 (m ((c : Thread nD τ).loc main_arg6)) shapeCasts_S128_S1x128 := by
  dsimp only [Gen.V, Gen.hostOps0]; after_results <;> rfl

/-- A stretch of R rows of the first weight matrix starting at row o, read at (a, k): row o + a. -/
theorem stretch_apply {R : ℕ} (o : ℕ) (W1 : FVec Ideal S272x1024 .f32)
    (h : S272x1024.Slices ![o, 0] ⟨2, ![R, 1024]⟩) (a : Fin R) (k : Fin 1024) (row : Fin 272) (hrow : row.val = o + a.val) :
    extractStridedSlice ⟨2, ![R, 1024]⟩ ![o, 0] W1 h (ix2 a k) = W1 (ix2 row k) :=
  extractStridedSlice_apply ![o, 0] W1 h (ix2 a k) (ix2 row k) (fun ax => match ax with
    | ⟨0, _⟩ => by show row.val = o + a.val; exact hrow
    | ⟨1, _⟩ => by show k.val = 0 + k.val; omega)

theorem w1a_apply (c : Dev nD) (a : Fin 128) (k : Fin 1024) :
    V m c main_v5 (ix2 a k) = m ((c : Thread nD τ).loc main_arg3) (ix2 (rowAgg a) k) := by
  rw [w1a_eq]
  exact stretch_apply 0 _ _ a k (rowAgg a) (by show a.val = 0 + a.val; omega)

theorem w1b_apply (c : Dev nD) (a : Fin 128) (k : Fin 1024) :
    V m c main_v6 (ix2 a k) = m ((c : Thread nD τ).loc main_arg3) (ix2 (rowNode a) k) := by
  rw [w1b_eq]
  exact stretch_apply 128 _ _ a k (rowNode a) rfl

/-- The global features' product contracts their 16 columns with the 16 rows of the third stretch. -/
theorem plainGlob : PlainDot.IsPlain dot_S1x16_S16x1024_S1x1024_1_0_0_1_n_n := ⟨rfl, rfl, rfl, rfl, rfl, rfl⟩

/-- The folded first bias, entry k: the global features' share of hidden unit k. -/
theorem foldedBias_apply (u : FVec Ideal S1x16 .f32) (W1 : FVec Ideal S272x1024 .f32) (b1 : FVec Ideal S1024 .f32) (k : Fin 1024) :
    foldedBias u W1 b1 (ix2 0 k) = globShare u W1 b1 k := by
  unfold foldedBias globShare
  rw [addf_apply]
  have hb : shapeCast S1x1024 b1 shapeCasts_S1024_S1x1024 (ix2 0 k) = b1 (ix1 k) :=
    shapeCast_apply b1 shapeCasts_S1024_S1x1024 (ix2 0 k) (ix1 k)
      (by rewrite [Shape.rowMajor_val_one, Shape.rowMajor_val_two]; show k.val = 0 * 1024 + k.val; omega)
  have hd : FloatOps.dotGeneral dot_S1x16_S16x1024_S1x1024_1_0_0_1_n_n none .single u
        (extractStridedSlice S16x1024 ![256, 0] W1 slices_S272x1024_S16x1024_256_0) (ix2 0 k)
      = ∑ a : Fin 16, u (ix2 0 a) * W1 (ix2 (rowGlob a) k) := by
    rw [PlainDot.dotGeneral_apply plainGlob]
    refine Finset.sum_congr rfl fun a _ => ?_
    rw [stretch_apply 256 W1 slices_S272x1024_S16x1024_256_0 a k (rowGlob a) rfl]
  rw [hb]
  exact congrArg (b1 (ix1 k) + ·) hd

theorem bias1_apply (c : Dev nD) (k : Fin 1024) :
    V m c main_v10 (ix2 0 k)
      = globShare (m ((c : Thread nD τ).loc main_arg2)) (m ((c : Thread nD τ).loc main_arg3)) (m ((c : Thread nD τ).loc main_arg4)) k := by
  rw [bias1_eq]
  exact foldedBias_apply _ _ _ k

/-- The second bias as a row, entry q. -/
theorem bias2_apply (c : Dev nD) (q : Fin 128) :
    V m c main_v11 (ix2 0 q) = m ((c : Thread nD τ).loc main_arg6) (ix1 q) := by
  rw [bias2_eq]
  exact shapeCast_apply _ shapeCasts_S128_S1x128 (ix2 0 q) (ix1 q)
    (by rewrite [Shape.rowMajor_val_one, Shape.rowMajor_val_two]; show q.val = 0 * 128 + q.val; omega)

end Cert.KernelIdeal.Entry

end
-- ==== Proof.BlockReads.lean ====
/-
  Where the blocks of a grid point sit in the arrays.

  The grid has 50 points; point t holds nodes 1000·t .. 1000·t + 999. Its blocks of aggregated features and of node
  features are rows 1000·t .. 1000·t + 999 of those arrays; its weight and bias blocks are the whole (small) arrays,
  the same at every point; the block it writes back is rows 1000·t .. 1000·t + 999 of the output. Each block entry is
  read here as an entry of the program's arguments. The aggregated features (a sum over all 1600000 edges) and the
  folded bias are brought in as named terms and never opened.
-/
import proofs.«144575_j34789235098352_1_alg».proof.Proof.Gen.KernelIdeal.Value
import proofs.«144575_j34789235098352_1_alg».proof.Proof.EntryArrays
import proofs.«144575_j34789235098352_1_alg».proof.Proof.NodeMlp

noncomputable section

open scoped BigOperators

namespace Cert.KernelIdeal.NodeValue

open Cert.KernelIdeal Cert.KernelIdeal.Gen Idealize.ShloMosaic Idealize.ShloMosaic.TcCoe Idealize.ShloMosaic.ValueIdx
open Idealize.SL.Sem Cert.NodeMlp
open Idealize.ShloMosaic.Pipeline (Dat)

variable (m : (ℓ : Loc nD τ sig) → Buf (Elt Ideal) ℓ) (ρ : Dev nD → PrngReg)

/-- The updated node array of the program's arguments: the aggregated edge features, then the two layers. -/
def result (c : Dev nD) : FVec Ideal S50000x128 .f32 :=
  updatedArr (Entry.aggregated (m ((c : Thread nD τ).loc main_arg7)) (m ((c : Thread nD τ).loc main_arg1)))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

theorem origin_zero : (![0, 0] : Fin 2 → Nat) = fun _ => 0 := funext fun a => by fin_cases a <;> rfl

/-- Where each window's block sits at point t: the two row-tiled inputs and the output at block row t, the
    weights and biases at block (0, 0). -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 50 :=
  (by decide +kernel : ∀ t : Fin grid0.N, _)

/-- Every block row of the output is some point's. -/
theorem block_row_onto : ∀ b : Fin 50, ∃ t : Fin cfg0.N, win0_7.index t = ![b.val, 0] :=
  (by decide +kernel : ∀ b : Fin 50, ∃ t : Fin grid0.N, win0_7.index t = ![b.val, 0])

/-- Point t's input blocks, each at its literal type. -/
abbrev blkAgg (c : Dev nD) (t : Fin cfg0.N) : Vec Ideal S1000x128 .f32 := iblk m c 0 t
abbrev blkNode (c : Dev nD) (t : Fin cfg0.N) : Vec Ideal S1000x128 .f32 := iblk m c 1 t
abbrev blkWa (c : Dev nD) (t : Fin cfg0.N) : Vec Ideal S128x1024 .f32 := iblk m c 2 t
abbrev blkWb (c : Dev nD) (t : Fin cfg0.N) : Vec Ideal S128x1024 .f32 := iblk m c 3 t
abbrev blkB1 (c : Dev nD) (t : Fin cfg0.N) : Vec Ideal S1x1024 .f32 := iblk m c 4 t
abbrev blkW2 (c : Dev nD) (t : Fin cfg0.N) : Vec Ideal S1024x128 .f32 := iblk m c 5 t
abbrev blkB2 (c : Dev nD) (t : Fin cfg0.N) : Vec Ideal S1x128 .f32 := iblk m c 6 t

/-- Node p of point t. -/
abbrev nodeOf (t : Fin cfg0.N) (p : Fin 1000) : Fin 50000 :=
  ⟨t.val * 1000 + p.val, by have := (block_positions t).2.2.2.2.2.2.2.2.2.2.2.2.2.2.2.2; have := p.isLt; omega⟩

/-- Rows of a row-tiled window: read through point t's block of window 0, any 50000 × 128 array G gives at (p, a) its
    entry (1000·t + p, a). (Stated for an arbitrary G: the aggregated features are a sum over all edges, a term to be
    named and never opened.) -/
theorem read_rows_agg (G : FVec Ideal S50000x128 .f32) (t : Fin cfg0.N) (p : Fin 1000) (a : Fin 128) :
    ((cfg0.win 0).blk t).view.read (Elt Ideal) G (ix2 p a) = G (ix2 (nodeOf t p) a) := by
  obtain ⟨e0, e1, -⟩ := block_positions t
  show G (((cfg0.win 0).blk t).view.emb (ix2 p a)) = G (ix2 (nodeOf t p) a)
  refine congrArg G (funext fun ax => Fin.ext ?_)
  match ax with
  | ⟨0, _⟩ => show win0_0.index t (0 : Fin 2) * 1000 + 1 * p.val = t.val * 1000 + p.val; omega
  | ⟨1, _⟩ => show win0_0.index t (1 : Fin 2) * 128 + 1 * a.val = a.val; omega

/-- Row p of point t's block of aggregated features is row 1000·t + p of the aggregated features. -/
theorem blkAgg_apply (c : Dev nD) (t : Fin cfg0.N) (p : Fin 1000) (a : Fin 128) :
    blkAgg m c t (ix2 p a)
      = Entry.aggregated (m ((c : Thread nD τ).loc main_arg7)) (m ((c : Thread nD τ).loc main_arg1)) (ix2 (nodeOf t p) a) := by
  have h : blkAgg m c t
      = ((cfg0.win 0).blk t).view.read (Elt Ideal)
          (Entry.aggregated (m ((c : Thread nD τ).loc main_arg7)) (m ((c : Thread nD τ).loc main_arg1))) := by
    show ((cfg0.win 0).blk t).view.read (Elt Ideal) (V m c main_v4) = _
    rw [Entry.agg_eq]
  rw [h]
  exact read_rows_agg _ t p a

/-- Row p of point t's block of node features is row 1000·t + p of the node features. -/
theorem blkNode_apply (c : Dev nD) (t : Fin cfg0.N) (p : Fin 1000) (a : Fin 128) :
    blkNode m c t (ix2 p a) = V m c main_arg0 (ix2 (nodeOf t p) a) := by
  obtain ⟨-, -, e0, e1, -⟩ := block_positions t
  show V m c main_arg0 (((cfg0.win 1).blk t).view.emb (ix2 p a)) = V m c main_arg0 (ix2 (nodeOf t p) a)
  refine congrArg (V m c main_arg0) (funext fun ax => Fin.ext ?_)
  match ax with
  | ⟨0, _⟩ => show win0_1.index t (0 : Fin 2) * 1000 + 1 * p.val = t.val * 1000 + p.val; omega
  | ⟨1, _⟩ => show win0_1.index t (1 : Fin 2) * 128 + 1 * a.val = a.val; omega

/-- The weight and bias blocks are the whole arrays. -/
theorem blkWa_apply (c : Dev nD) (t : Fin cfg0.N) (a : Fin 128) (k : Fin 1024) :
    blkWa m c t (ix2 a k) = V m c main_v5 (ix2 a k) := by
  obtain ⟨-, -, -, -, e0, e1, -⟩ := block_positions t
  show V m c main_v5 (((cfg0.win 2).blk t).view.emb (ix2 a k)) = V m c main_v5 (ix2 a k)
  refine congrArg (V m c main_v5) (funext fun ax => Fin.ext ?_)
  match ax with
  | ⟨0, _⟩ => show win0_2.index t (0 : Fin 2) * 128 + 1 * a.val = a.val; omega
  | ⟨1, _⟩ => show win0_2.index t (1 : Fin 2) * 1024 + 1 * k.val = k.val; omega

theorem blkWb_apply (c : Dev nD) (t : Fin cfg0.N) (a : Fin 128) (k : Fin 1024) :
    blkWb m c t (ix2 a k) = V m c main_v6 (ix2 a k) := by
  obtain ⟨-, -, -, -, -, -, e0, e1, -⟩ := block_positions t
  show V m c main_v6 (((cfg0.win 3).blk t).view.emb (ix2 a k)) = V m c main_v6 (ix2 a k)
  refine congrArg (V m c main_v6) (funext fun ax => Fin.ext ?_)
  match ax with
  | ⟨0, _⟩ => show win0_3.index t (0 : Fin 2) * 128 + 1 * a.val = a.val; omega
  | ⟨1, _⟩ => show win0_3.index t (1 : Fin 2) * 1024 + 1 * k.val = k.val; omega

/-- The bias row's window holds the whole row: read through point t's block of window 4, any 1 × 1024 array G gives
    at (0, k) its entry (0, k). -/
theorem read_bias1 (G : FVec Ideal S1x1024 .f32) (t : Fin cfg0.N) (k : Fin 1024) :
    ((cfg0.win 4).blk t).view.read (Elt Ideal) G (ix2 0 k) = G (ix2 0 k) := by
  obtain ⟨-, -, -, -, -, -, -, -, e0, e1, -⟩ := block_positions t
  show G (((cfg0.win 4).blk t).view.emb (ix2 0 k)) = G (ix2 0 k)
  refine congrArg G (funext fun ax => Fin.ext ?_)
  match ax with
  | ⟨0, _⟩ => show win0_4.index t (0 : Fin 2) * 1 + 1 * 0 = 0; omega
  | ⟨1, _⟩ => show win0_4.index t (1 : Fin 2) * 1024 + 1 * k.val = k.val; omega

/-- Entry k of point t's bias row is the global features' share of hidden unit k. -/
theorem blkB1_apply (c : Dev nD) (t : Fin cfg0.N) (k : Fin 1024) :
    blkB1 m c t (ix2 0 k)
      = globShare (m ((c : Thread nD τ).loc main_arg2)) (m ((c : Thread nD τ).loc main_arg3)) (m ((c : Thread nD τ).loc main_arg4)) k := by
  have h : blkB1 m c t
      = ((cfg0.win 4).blk t).view.read (Elt Ideal)
          (Entry.foldedBias (m ((c : Thread nD τ).loc main_arg2)) (m ((c : Thread nD τ).loc main_arg3)) (m ((c : Thread nD τ).loc main_arg4))) := by
    show ((cfg0.win 4).blk t).view.read (Elt Ideal) (V m c main_v10) = _
    rw [Entry.bias1_eq]
  rw [h, read_bias1]
  exact Entry.foldedBias_apply _ _ _ k

theorem blkW2_apply (c : Dev nD) (t : Fin cfg0.N) (k : Fin 1024) (q : Fin 128) :
    blkW2 m c t (ix2 k q) = V m c main_arg5 (ix2 k q) := by
  obtain ⟨-, -, -, -, -, -, -, -, -, -, e0, e1, -⟩ := block_positions t
  show V m c main_arg5 (((cfg0.win 5).blk t).view.emb (ix2 k q)) = V m c main_arg5 (ix2 k q)
  refine congrArg (V m c main_arg5) (funext fun ax => Fin.ext ?_)
  match ax with
  | ⟨0, _⟩ => show win0_5.index t (0 : Fin 2) * 1024 + 1 * k.val = k.val; omega
  | ⟨1, _⟩ => show win0_5.index t (1 : Fin 2) * 128 + 1 * q.val = q.val; omega

theorem blkB2_apply (c : Dev nD) (t : Fin cfg0.N) (q : Fin 128) :
    blkB2 m c t (ix2 0 q) = V m c main_v11 (ix2 0 q) := by
  obtain ⟨-, -, -, -, -, -, -, -, -, -, -, -, e0, e1, -⟩ := block_positions t
  show V m c main_v11 (((cfg0.win 6).blk t).view.emb (ix2 0 q)) = V m c main_v11 (ix2 0 q)
  refine congrArg (V m c main_v11) (funext fun ax => Fin.ext ?_)
  match ax with
  | ⟨0, _⟩ => show win0_6.index t (0 : Fin 2) * 1 + 1 * 0 = 0; omega
  | ⟨1, _⟩ => show win0_6.index t (1 : Fin 2) * 128 + 1 * q.val = q.val; omega

/-- Entry (p, q) of point t's output block is entry (1000·t + p, q) of the output array. -/
theorem out_emb (t : Fin cfg0.N) (p : Fin 1000) (q : Fin 128) :
    ((cfg0.win 7).blk t).view.emb (ix2 p q) = (ix2 (nodeOf t p) q : S50000x128.Idx) := by
  obtain ⟨-, -, -, -, -, -, -, -, -, -, -, -, -, -, e0, e1, -⟩ := block_positions t
  refine funext fun ax => Fin.ext ?_
  match ax with
  | ⟨0, _⟩ => show win0_7.index t (0 : Fin 2) * 1000 + 1 * p.val = t.val * 1000 + p.val; omega
  | ⟨1, _⟩ => show win0_7.index t (1 : Fin 2) * 128 + 1 * q.val = q.val; omega

end Cert.KernelIdeal.NodeValue

end
-- ==== Proof.BodyAt.lean ====
/-
  One grid point of the node-update kernel, entry by entry, on the extended reals.

  A grid point holds 1000 nodes. From its block of aggregated edge features (1000 × 128), its block of node features
  (1000 × 128), the two 128-row stretches of the first weight matrix (128 × 1024 each), the folded first bias
  (1 × 1024), the second weight matrix (1024 × 128) and the second bias (1 × 128), the body computes, for node p of
  the block and output entry q,

      Σ_k max( Σ_a agg(p, a) · Wa(a, k) + Σ_a x(p, a) · Wb(a, k) + bias1(0, k), 0 ) · W2(k, q) + bias2(0, q).

  The changes of float format in the body are the identity on the extended reals, each matrix product into a zero
  accumulator is the plain sum over the contracted axis, and the two biases are rows broadcast down the block.
-/
import proofs.«144575_j34789235098352_1_alg».proof.Proof.Gen.KernelIdeal.Skeleton
import proofs.«144575_j34789235098352_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first layer's two products contract the block's 128 feature columns with a 128-row stretch of weights. -/
theorem plainFirst : PlainDot.IsPlain dot_S1000x128_S128x1024_S1000x1024_1_0_0_1_n_n := ⟨rfl, rfl, rfl, rfl, rfl, rfl⟩
/-- The second layer's product contracts the 1024 hidden units. -/
theorem plainSecond : PlainDot.IsPlain dot_S1000x1024_S1024x128_S1000x128_1_0_0_1_n_n := ⟨rfl, rfl, rfl, rfl, rfl, rfl⟩

/-- A one-row array of width n broadcast down R rows, read at (p, k): the row's entry k. -/
theorem row_down_apply {R n : ℕ} (hn : n ≠ 1) (v : Vec Ideal ⟨2, ![1, n]⟩ .f32)
    (h1 : (⟨2, ![1, n]⟩ : Shape).ShapeCasts ⟨2, ![1, n]⟩) (h2 : (⟨2, ![1, n]⟩ : Shape).Broadcasts ⟨2, ![R, n]⟩)
    (p : Fin R) (k : Fin n) :
    broadcastTo ⟨2, ![R, n]⟩ (shapeCast ⟨2, ![1, n]⟩ v h1) h2 (ix2 p k) = v (ix2 0 k) := by
  rw [shapeCast_self]
  exact broadcastTo_apply v h2 (ix2 p k) (ix2 0 k) (fun a => match a with
    | ⟨0, _⟩ => by show (0 : ℕ) = if (1 : ℕ) = 1 then 0 else _; rw [if_pos rfl]
    | ⟨1, _⟩ => by show k.val = if n = 1 then 0 else k.val; rw [if_neg hn])

variable (v0 v3 : Vec Ideal S1000x128 .f32) (v5 v8 : Vec Ideal S128x1024 .f32) (v14 : Vec Ideal S1x1024 .f32)
  (v21 : Vec Ideal S1024x128 .f32) (v24 : Vec Ideal S1x128 .f32)

/-- The block's hidden values: the first layer's two products, the bias row, the maximum with zero. -/
def hidden : FVec Ideal S1000x1024 .f32 :=
  maximumf
    (addf
      (addf
        (FloatOps.matmul dot_S1000x128_S128x1024_S1000x1024_1_0_0_1_n_n none
          (truncf .bf16 (shapeCast S1000x128 v0 shapeCasts_S1000x128_S1000x128) bitsLt_bf16_f32)
          (truncf .bf16 (shapeCast S128x1024 v5 shapeCasts_S128x1024_S128x1024) bitsLt_bf16_f32)
          (constant S1000x1024 .f32 0x00000000#32))
        (FloatOps.matmul dot_S1000x128_S128x1024_S1000x1024_1_0_0_1_n_n none
          (truncf .bf16 v3 bitsLt_bf16_f32)
          (truncf .bf16 (shapeCast S128x1024 v8 shapeCasts_S128x1024_S128x1024) bitsLt_bf16_f32)
          (constant S1000x1024 .f32 0x00000000#32)))
      (broadcastTo S1000x1024 (shapeCast S1x1024 v14 shapeCasts_S1x1024_S1x1024) broadcasts_S1x1024_S1000x1024))
    (broadcast S1000x1024 (Scalar.ofBits .f32 0x00000000#32))

/-- The body's stored value is the second layer over those hidden values. -/
theorem stored_eq :
    k0_pay1 (F := Ideal) v0 v3 v5 v8 v14 v21 v24
      = addf
          (FloatOps.matmul dot_S1000x1024_S1024x128_S1000x128_1_0_0_1_n_n none
            (truncf .bf16 (hidden v0 v3 v5 v8 v14) bitsLt_bf16_f32) (truncf .bf16 v21 bitsLt_bf16_f32)
            (constant S1000x128 .f32 0x00000000#32))
          (broadcastTo S1000x128 (shapeCast S1x128 v24 shapeCasts_S1x128_S1x128) broadcasts_S1x128_S1000x128) := rfl

/-- A hidden value of the block: node p, unit k. -/
theorem hidden_apply (p : Fin 1000) (k : Fin 1024) :
    hidden v0 v3 v5 v8 v14 (ix2 p k)
      = max (((∑ a : Fin 128, v0 (ix2 p a) * v5 (ix2 a k)) + ∑ a : Fin 128, v3 (ix2 p a) * v8 (ix2 a k)) + v14 (ix2 0 k)) 0 := by
  unfold hidden
  rw [maximumf_apply, addf_apply, addf_apply, broadcast_apply, shapeCast_self, shapeCast_self, shapeCast_self,
    PlainDot.matmul_zero_apply plainFirst, PlainDot.matmul_zero_apply plainFirst,
    row_down_apply (by decide) v14]
  show max _ (Ideal.ofBits .f32 0x00000000#32) = _
  rw [Ideal.ofBits_zero_f32]
  rfl

/-- The stored value of the block: node p, output entry q. -/
theorem stored_apply (p : Fin 1000) (q : Fin 128) :
    k0_pay1 (F := Ideal) v0 v3 v5 v8 v14 v21 v24 (ix2 p q)
      = (∑ k : Fin 1024,
          max (((∑ a : Fin 128, v0 (ix2 p a) * v5 (ix2 a k)) + ∑ a : Fin 128, v3 (ix2 p a) * v8 (ix2 a k)) + v14 (ix2 0 k)) 0
            * v21 (ix2 k q))
        + v24 (ix2 0 q) := by
  rw [stored_eq, addf_apply, PlainDot.matmul_zero_apply plainSecond, row_down_apply (by decide) v24]
  refine congrArg (· + v24 (ix2 0 q)) (Finset.sum_congr rfl fun k _ => ?_)
  show hidden v0 v3 v5 v8 v14 (ix2 p k) * v21 (ix2 k q) = _
  rw [hidden_apply]

end Cert.KernelIdeal.Body

end
-- ==== Proof.PointEntry.lean ====
/-
  One grid point, entry by entry: node p of point t is node r = 1000·t + p, and what the body stores at (p, q) is the
  updated entry (r, q) — the body's formula over its blocks, each block entry read as an entry of the arrays.
-/
import proofs.«144575_j34789235098352_1_alg».proof.Proof.BlockReads
import proofs.«144575_j34789235098352_1_alg».proof.Proof.BodyAt

noncomputable section

open scoped BigOperators

namespace Cert.KernelIdeal.NodeValue

open Cert.KernelIdeal Cert.KernelIdeal.Gen Idealize.ShloMosaic Idealize.ShloMosaic.TcCoe Idealize.ShloMosaic.ValueIdx
open Idealize.SL.Sem Cert.NodeMlp
open Idealize.ShloMosaic.Pipeline (Dat)

variable (m : (ℓ : Loc nD τ sig) → Buf (Elt Ideal) ℓ) (ρ : Dev nD → PrngReg)

/-- The updated node array read at (r, q). -/
theorem result_apply (c : Dev nD) (r : Fin 50000) (q : Fin 128) :
    result m c (ix2 r q)
      = updated (Entry.aggregated (m ((c : Thread nD τ).loc main_arg7)) (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) r q := rfl

/-- What the body stores at (p, q) at point t is the updated entry of node 1000·t + p: the block's formula, each of
    its block entries read as an entry of the arrays. -/
theorem point_entry (c : Dev nD) (t : Fin cfg0.N) (p : Fin 1000) (q : Fin 128) :
    k0_pay1 (F := Ideal) (iblk m c 0 t) (iblk m c 1 t) (iblk m c 2 t) (iblk m c 3 t) (iblk m c 4 t) (iblk m c 5 t) (iblk m c 6 t) (ix2 p q)
      = result m c (ix2 (nodeOf t p) q) := by
  rw [result_apply]
  refine (Body.stored_apply (blkAgg m c t) (blkNode m c t) (blkWa m c t) (blkWb m c t) (blkB1 m c t) (blkW2 m c t) (blkB2 m c t) p q).trans ?_
  refine updated_of_block _ _ _ _ _ _ _ (blkAgg m c t) (blkNode m c t) (blkWa m c t) (blkWb m c t) (blkB1 m c t) (blkW2 m c t) (blkB2 m c t)
    (nodeOf t p) p q ?_ ?_ ?_ ?_ ?_ ?_ ?_
  · intro a; exact blkAgg_apply m c t p a
  · intro a; rw [blkNode_apply, V_main_arg0]
  · intro a k; rw [blkWa_apply, Entry.w1a_apply]
  · intro a k; rw [blkWb_apply, Entry.w1b_apply]
  · intro k; exact blkB1_apply m c t k
  · intro k; rw [blkW2_apply, V_main_arg5]
  · rw [blkB2_apply, Entry.bias2_apply]

end Cert.KernelIdeal.NodeValue

end
-- ==== Proof.NodeBlocks.lean ====
/-
  From grid points to the whole output array: point t writes back block t of the updated node array, and the 50 blocks
  of 1000 rows tile the 50000 rows, so the output array ends as the whole updated node array.
-/
import proofs.«144575_j34789235098352_1_alg».proof.Proof.PointEntry

noncomputable section

open scoped BigOperators

namespace Cert.KernelIdeal.NodeValue

open Cert.KernelIdeal Cert.KernelIdeal.Gen Idealize.ShloMosaic Idealize.ShloMosaic.TcCoe Idealize.ShloMosaic.ValueIdx
open Idealize.SL.Sem Cert.NodeMlp
open Idealize.ShloMosaic.Pipeline (Dat)

variable (m : (ℓ : Loc nD τ sig) → Buf (Elt Ideal) ℓ) (ρ : Dev nD → PrngReg)

/-- A block from its entries: if a 1000 × 128 vector X agrees entry by entry with rows 1000·t .. 1000·t + 999 of a
    50000 × 128 array R, then what point t writes back of X is block t of R. -/
theorem block_of_entries (X : FVec Ideal S1000x128 .f32) (R : FVec Ideal S50000x128 .f32) (t : Fin cfg0.N)
    (h : ∀ (p : Fin 1000) (q : Fin 128), X (ix2 p q) = R (ix2 (nodeOf t p) q)) :
    (cfg0.win 7).cut (grid0.coords t) X = ((cfg0.win 7).blk t).view.read (Elt Ideal) R := by
  funext j
  obtain ⟨p, q, rfl⟩ : ∃ (p : Fin 1000) (q : Fin 128), j = ix2 p q := ⟨j 0, j 1, eq_ix2 j⟩
  show X (ix2 p q) = R (((cfg0.win 7).blk t).view.emb (ix2 p q))
  rw [out_emb t p q]
  exact h p q

/-- WHAT POINT t WRITES BACK is block t of the updated node array. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero origin_zero]
  simp only [View.ld_unit_zero (S := S1000x128) origin_zero, View.ld_unit_zero (S := S128x1024) origin_zero,
    View.ld_unit_zero (S := S1x1024) origin_zero, View.ld_unit_zero (S := S1024x128) origin_zero,
    View.ld_unit_zero (S := S1x128) origin_zero]
  exact block_of_entries
    (k0_pay1 (F := Ideal) (iblk m c 0 t) (iblk m c 1 t) (iblk m c 2 t) (iblk m c 3 t) (iblk m c 4 t) (iblk m c 5 t) (iblk m c 6 t))
    (result m c) t (fun p q => point_entry m c t p q)

/-- An index of the output array is in point t's block iff each coordinate is in the block's range on its axis. -/
theorem mem_block (t : Fin cfg0.N) (i : S50000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v12).slice (win0_7.rect t)).set ↔ _
  rw [View.set_slice_whole, Rect.mem_set_unit]
  exact Iff.rfl

/-- The 50 blocks of 1000 rows tile the 50000 rows: every index is in the block of the point its row falls in. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := block_row_onto ⟨(i 0).val / 1000, by omega⟩
  have q0 : win0_7.index t (0 : Fin 2) = (i 0).val / 1000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 128 ≤ (i 1).val ∧ (i 1).val < win0_7.index t (1 : Fin 2) * 128 + 128; omega

/-- THE OUTPUT ARRAY after the run is the updated node array. -/
theorem final (c : Dev nD) : (dats m 0 c).arrAt 7 cfg0.N = result m c :=
  (dats m 0 c).arrAt_eq_of_cover 7 (result m c) (fun t _ => flushed_eq m c t) covered

/-- The kernel program's run: the output ends as the updated node array, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.NodeValue

end
-- ==== Proof.RefValue.lean ====
/-
  The reference program's result, entry by entry, is the updated node array.

  The reference builds, for every node, the concatenated input row (aggregated edge features | node features | global
  features), multiplies the 50000 × 272 array of rows by the first weight matrix in one product, adds the first bias,
  takes the maximum with zero, multiplies by the second weight matrix and adds the second bias. Read at an entry, the
  first product is the sum over all 272 rows of the weight matrix — the plain arrangement — which is the split
  arrangement by the sum over 272 = 128 + 128 + 16 terms taken in three stretches.
-/
import proofs.«144575_j34789235098352_1_alg».proof.Proof.Gen.ReferenceIdeal.Read
import proofs.«144575_j34789235098352_1_alg».proof.Proof.NodeMlp
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NodeMlp

variable (x0 : FVec Ideal S50000x128 .f32) (x1 : FVec Ideal S1600000x128 .f32) (x2 : FVec Ideal S1x16 .f32)
  (x3 : FVec Ideal S272x1024 .f32) (x4 : FVec Ideal S1024 .f32) (x5 : FVec Ideal S1024x128 .f32)
  (x6 : FVec Ideal S128 .f32) (x7 : IVec S2x1600000 32)

/-- Entry a of node r's row of the concatenated array: the piece whose span of columns holds a. -/
theorem row_apply (r : Fin 50000) (a : Fin 272) :
    val_main_v6 (F := Ideal) x0 x1 x2 x7 (ix2 r a) = inputRow (val_main_v4 (F := Ideal) x1 x7) x0 x2 r a := by
  unfold val_main_v6 inputRow
  have ha := a.isLt
  by_cases h1 : a.val < 128
  · rw [dif_pos h1]
    exact concatenate_apply_piece (1 : Fin S50000x272.rank) _ _ (ix2 r a) 0 (by show (0 : ℕ) < 3; omega) S50000x128 _ rfl rfl 0 rfl
      (ix2 r ⟨a.val, h1⟩) (fun b => match b with | ⟨0, _⟩ => fun _ => rfl | ⟨1, _⟩ => fun hne => absurd rfl hne)
      (by show 0 + a.val = a.val; omega)
  · rw [dif_neg h1]
    by_cases h2 : a.val < 256
    · rw [dif_pos h2]
      exact concatenate_apply_piece (1 : Fin S50000x272.rank) _ _ (ix2 r a) 1 (by show (1 : ℕ) < 3; omega) S50000x128 _ rfl rfl 128 rfl
        (ix2 r ⟨a.val - 128, by omega⟩) (fun b => match b with | ⟨0, _⟩ => fun _ => rfl | ⟨1, _⟩ => fun hne => absurd rfl hne)
        (by show 128 + (a.val - 128) = a.val; omega)
    · rw [dif_neg h2]
      refine (concatenate_apply_piece (1 : Fin S50000x272.rank) _ _ (ix2 r a) 2 (by show (2 : ℕ) < 3; omega) S50000x16 _ rfl rfl 256 rfl
        (ix2 r ⟨a.val - 256, by omega⟩) (fun b => match b with | ⟨0, _⟩ => fun _ => rfl | ⟨1, _⟩ => fun hne => absurd rfl hne)
        (by show 256 + (a.val - 256) = a.val; omega)).trans ?_
      rw [val_main_v5_apply]
      exact congrArg x2 (funext fun ax => match ax with | ⟨0, _⟩ => rfl | ⟨1, _⟩ => rfl)

/-- Hidden unit k of node r before the maximum, as the reference computes it: the plain arrangement. -/
theorem pre_apply (r : Fin 50000) (k : Fin 1024) :
    val_main_v10 (F := Ideal) x0 x1 x2 x3 x4 x7 (ix2 r k) = prePlain (val_main_v4 (F := Ideal) x1 x7) x0 x2 x3 x4 r k := by
  rw [val_main_v10_apply, val_main_v7_apply, val_main_v9_apply, val_main_v8_apply]
  unfold prePlain
  have hl : ∀ a : Fin 272, lidx_main_v7 (ix2 r k) a = ix2 r a := fun a =>
    funext fun ax => match ax with | ⟨0, _⟩ => rfl | ⟨1, _⟩ => rfl
  have hr : ∀ a : Fin 272, ridx_main_v7 (ix2 r k) a = ix2 a k := fun a =>
    funext fun ax => match ax with | ⟨0, _⟩ => rfl | ⟨1, _⟩ => rfl
  have hb : idx_main_v8 (idx_main_v9 (ix2 r k)) = ix1 k := funext fun ax => match ax with | ⟨0, _⟩ => rfl
  simp only [hl, hr, hb, row_apply]
  rfl

/-- The reference's result is the updated node array of its arguments. -/
theorem result_eq :
    val_main_v15 (F := Ideal) x0 x1 x2 x3 x4 x5 x6 x7 = updatedArr (val_main_v4 (F := Ideal) x1 x7) x0 x2 x3 x4 x5 x6 := by
  funext i
  obtain ⟨r, q, rfl⟩ : ∃ (r : Fin 50000) (q : Fin 128), i = ix2 r q := ⟨i 0, i 1, eq_ix2 i⟩
  rw [val_main_v15_apply, val_main_v12_apply, val_main_v14_apply, val_main_v13_apply]
  show _ = updated _ _ _ _ _ _ _ r q
  unfold updated
  have hl : ∀ k : Fin 1024, lidx_main_v12 (ix2 r q) k = ix2 r k := fun k =>
    funext fun ax => match ax with | ⟨0, _⟩ => rfl | ⟨1, _⟩ => rfl
  have hr : ∀ k : Fin 1024, ridx_main_v12 (ix2 r q) k = ix2 k q := fun k =>
    funext fun ax => match ax with | ⟨0, _⟩ => rfl | ⟨1, _⟩ => rfl
  have hb : idx_main_v13 (idx_main_v14 (ix2 r q)) = ix1 q := funext fun ax => match ax with | ⟨0, _⟩ => rfl
  have hh : ∀ k : Fin 1024, val_main_v11 (F := Ideal) x0 x1 x2 x3 x4 x7 (ix2 r k)
      = max (preSplit (val_main_v4 (F := Ideal) x1 x7) x0 x2 x3 x4 r k) 0 := fun k => by
    rw [val_main_v11_apply, pre_apply, prePlain_eq_preSplit, val_main_call0_v0_apply, val_main_call0_cst_apply]
    show max _ (Ideal.ofBits .f32 0x00000000#32) = _
    rw [Ideal.ofBits_zero_f32]
  simp only [hl, hr, hb, hh]
  rfl

end Cert.ReferenceIdeal.RefValue

end
-- ==== Proof.lean ====
/-
  A message-passing node update: kernel against reference, on the extended reals.

  Both programs first scatter-sum the 1600000 × 128 edge features onto their 50000 receiver nodes (the same host
  operations on both sides, kept closed), and then update every node by a two-layer perceptron whose input row is
  (aggregated edge features | node features | global features), 128 + 128 + 16 = 272 entries:

      h(r, k)   = max( Σ_{a < 272} row(r, a) · W1(a, k) + b1(k), 0 ),        k < 1024
      out(r, q) = Σ_{k < 1024} h(r, k) · W2(k, q) + b2(q),                   q < 128.

  The reference forms the rows by concatenation and multiplies by W1 once. The kernel never forms them: on the host it
  cuts W1 into its three stretches of rows, folds the global features' product into the bias (it is the same for all
  nodes), and in a grid of 50 blocks of 1000 nodes multiplies the block's aggregated features by rows 0..127 and its
  node features by rows 128..255, adds the folded bias, takes the maximum with zero and applies the second layer. On
  the extended reals the changes of float format are the identity and every matrix product is its plain sum, so the
  two agree by splitting the sum over 272 terms into its stretches and regrouping additions (commutativity and
  associativity only: the finiteness of the inputs is not used). The three frames are the generated ones; the
  idealization rewrote nothing, so its preservation conjunct is trivial.
-/
import proofs.«144575_j34789235098352_1_alg».proof.Defs
import proofs.«144575_j34789235098352_1_alg».proof.Proof.Gen.Kernel
import proofs.«144575_j34789235098352_1_alg».proof.Proof.Gen.Kernel.Skeleton
import proofs.«144575_j34789235098352_1_alg».proof.Proof.Gen.Kernel.Launch
import proofs.«144575_j34789235098352_1_alg».proof.Proof.Gen.Kernel.Points
import proofs.«144575_j34789235098352_1_alg».proof.Proof.Gen.Kernel.Frame
import proofs.«144575_j34789235098352_1_alg».proof.Proof.Gen.KernelIdeal
import proofs.«144575_j34789235098352_1_alg».proof.Proof.Gen.KernelIdeal.Skeleton
import proofs.«144575_j34789235098352_1_alg».proof.Proof.Gen.KernelIdeal.Launch
import proofs.«144575_j34789235098352_1_alg».proof.Proof.Gen.KernelIdeal.Points
import proofs.«144575_j34789235098352_1_alg».proof.Proof.Gen.KernelIdeal.Frame
import proofs.«144575_j34789235098352_1_alg».proof.Proof.Gen.ReferenceIdeal
import proofs.«144575_j34789235098352_1_alg».proof.Proof.Gen.Pre_finite_inputs
import proofs.«144575_j34789235098352_1_alg».proof.Proof.Gen.KernelIdeal.Value
import proofs.«144575_j34789235098352_1_alg».proof.Proof.Gen.ReferenceIdeal.Run
import proofs.«144575_j34789235098352_1_alg».proof.Proof.Gen.ReferenceIdeal.Read
import proofs.«144575_j34789235098352_1_alg».proof.Proof.NodeBlocks
import proofs.«144575_j34789235098352_1_alg».proof.Proof.RefValue
import Idealize.ShloMosaic.Adequacy
import Idealize.ShloMosaic.Init

noncomputable section

namespace Cert.Proof

open Idealize.ShloMosaic Idealize.ShloMosaic.TcCoe Idealize.SL.Sem

namespace NodeClaims

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The aggregated edge features are one term in both programs: the same scatter-sum of the same operands. -/
theorem aggregated_same (x1 : FVec Ideal Cert.ReferenceIdeal.S1600000x128 .f32) (x7 : IVec Cert.ReferenceIdeal.S2x1600000 32) :
    Cert.ReferenceIdeal.Read.val_main_v4 (F := Ideal) x1 x7 = Cert.KernelIdeal.Entry.aggregated x7 x1 := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.KernelIdeal.Entry.aggregated
  rfl

/-- Both runs end with the updated node array of the (agreeing) arguments: the kernel's output array block by block,
    the reference's result entry by entry; the aggregated edge features are one term on both sides. -/
theorem algebraic : Cert.algebraic_KernelIdeal_ReferenceIdeal := by
  intro m ρ m' ρ' _ hagree
  refine ⟨fun c => Cert.KernelIdeal.NodeValue.result m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  refine (Cert.ReferenceIdeal.Read.val_main_v15_eq _ _ _ _ _ _ _ _).trans ?_
  rw [Cert.ReferenceIdeal.RefValue.result_eq, aggregated_same]
  rfl

end NodeClaims

theorem claim : Cert.Claim :=
  ⟨Cert.Kernel.Gen.facts, Cert.KernelIdeal.Gen.facts, Cert.ReferenceIdeal.Gen.facts, Cert.Pre_finite_inputs.Gen.facts,
    NodeClaims.frame_kernel, NodeClaims.frame_kernelIdeal, NodeClaims.frame_referenceIdeal, trivial, NodeClaims.algebraic⟩

end Cert.Proof

end
